-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S1000x300 : Shape := ⟨2, ![1000, 300]⟩
abbrev S1000x2048 : Shape := ⟨2, ![1000, 2048]⟩
abbrev S1000 : Shape := ⟨1, ![1000]⟩
abbrev S1024x2048 : Shape := ⟨2, ![1024, 2048]⟩
abbrev S1024 : Shape := ⟨1, ![1024]⟩
abbrev S1024x300 : Shape := ⟨2, ![1024, 300]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1000x300 : S_.BroadcastsInDim S1000x300 (![] : Fin 0 → Fin S1000x300.rank)
  reducesTo_S1000x300_S_d0_1 : S1000x300.ReducesTo [0, 1] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x300 : S_.BroadcastsInDim S1024x300 (![] : Fin 0 → Fin S1024x300.rank)
  reducesTo_S1024x300_S_d0_1 : S1024x300.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S1024x300 .f32) (main_arg7 : FVec F S1024 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x300 .f32 := Host.absf main_arg6
  let main_cst_10 : FVec F S_ .f32 := constant S_ .f32 0x7F800000#32
  let main_v30 : FVec F S1024x300 .f32 := broadcastInDim S1024x300 ![] bcast_S_S1024x300 main_cst_10
  let main_v31 : IVec S1024x300 1 := cmpf .olt main_v29 main_v30
  let main_c_11 : IVec S_ 1 := constantI S_ 1 1#1
  let main_v32 : IVec S_ 1 := (fun x v => Host.reduce IntOp.andi x v reducesTo_S1024x300_S_d0_1 h_S_) main_v31 main_c_11
  let main_v33 : IVec S_ 1 := andi main_v28 main_v32
  fn_part2 (F := F) main_arg7 main_v33

def fn {F : FTy → Type} [FloatOps F] (main_arg0 : FVec F S2048x2048 .f32) (main_arg1 : FVec F S1000x300 .f32) (main_arg2 : FVec F S1000x2048 .f32) (main_arg3 : FVec F S1000 .f32) (main_arg4 : FVec F S1024x2048 .f32) (main_arg5 : FVec F S1024 .f32) (main_arg6 : FVec F S1024x300 .f32) (main_arg7 : FVec F S1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1000x300 .f32 := Host.absf main_arg1
  let main_cst_0 : FVec F S_ .f32 := constant S_ .f32 0x7F800000#32
  let main_v5 : FVec F S1000x300 .f32 := broadcastInDim S1000x300 ![] bcast_S_S1000x300 main_cst_0
  let main_v6 : IVec S1000x300 1 := cmpf .olt main_v4 main_v5
  let main_c_1 : IVec S_ 1 := constantI S_ 1 1#1
  let main_v7 : IVec S_ 1 := (fun x v => Host.reduce IntOp.andi x v reducesTo_S1000x300_S_d0_1 h_S_) main_v6 main_c_1
  let main_v8 : IVec S_ 1 := andi main_v3 main_v7
  let main_v9 : FVec F S1000x2048 .f32 := Host.absf main_arg2
  let main_cst_2 : FVec F S_ .f32 := constant S_ .f32 0x7F800000#32
  let main_v10 : FVec F S1000x2048 .f32 := broadcastInDim S1000x2048 ![] bcast_S_S1000x2048 main_cst_2
  let main_v11 : IVec S1000x2048 1 := cmpf .olt main_v9 main_v10
  let main_c_3 : IVec S_ 1 := constantI S_ 1 1#1
  let main_v12 : IVec S_ 1 := (fun x v => Host.reduce IntOp.andi x v reducesTo_S1000x2048_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_v13 main_v16
-- ==== Kernel.lean ====
abbrev S2048x2048 : Shape := ⟨2, ![2048, 2048]⟩
abbrev S1000x300 : Shape := ⟨2, ![1000, 300]⟩
abbrev S1000x2048 : Shape := ⟨2, ![1000, 2048]⟩
abbrev S1000 : Shape := ⟨1, ![1000]⟩
abbrev S1024x2048 : Shape := ⟨2, ![1024, 2048]⟩
abbrev S1024 : Shape := ⟨1, ![1024]⟩
abbrev S1024x300 : Shape := ⟨2, ![1024, 300]⟩
abbrev S1x1000 : Shape := ⟨2, ![1, 1000]⟩
abbrev S1x1024 : Shape := ⟨2, ![1, 1024]⟩
abbrev S1000x1024 : Shape := ⟨2, ![1000, 1024]⟩
abbrev S2048x1000 : Shape := ⟨2, ![2048, 1000]⟩
abbrev S256x2048 : Shape := ⟨2, ![256, 2048]⟩
abbrev S256x1000 : Shape := ⟨2, ![256, 1000]⟩
abbrev S256x1024 : Shape := ⟨2, ![256, 1024]⟩

abbrev nBuf : Space → Nat
  | .hbm => 16
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S1000x300, .f32⟩
  | .hbm, ⟨2, _⟩ => ⟨S1000x2048, .f32⟩
  | .hbm, ⟨3, _⟩ => ⟨S1000, .f32⟩
  | .hbm, ⟨4, _⟩ => ⟨S1024x2048, .f32⟩
  | .hbm, ⟨5, _⟩ => ⟨S1024, .f32⟩
  | .hbm, ⟨6, _⟩ => ⟨S1024x300, .f32⟩
  | .hbm, ⟨7, _⟩ => ⟨S1024, .f32⟩
  | .hbm, ⟨8, _⟩ => ⟨S1x1000, .f32⟩
  | .hbm, ⟨9, _⟩ => ⟨S1x1024, .f32⟩
  | .hbm, ⟨10, _⟩ => ⟨S1x1024, .f32⟩
  | .hbm, ⟨11, _⟩ => ⟨S1000x2048, .bf16⟩
  | .hbm, ⟨12, _⟩ => ⟨S1024x2048, .bf16⟩
  | .hbm, ⟨13, _⟩ => ⟨S1000x1024, .bf16⟩
  | .hbm, ⟨14, _⟩ => ⟨S2048x1000, .f32⟩
  | .hbm, ⟨15, _⟩ => ⟨S2048x1000, .f32⟩
  | .local _ .vmem, ⟨0, _⟩ => ⟨S1000x2048, .f32⟩
  | .local _ .vmem, ⟨1, _⟩ => ⟨S1024x2048, .f32⟩
  | .local _ .vmem, ⟨2, _⟩ => ⟨S1000x2048, .bf16⟩
  | .local _ .vmem, ⟨3, _⟩ => ⟨S1024x2048, .bf16⟩
  | .local _ .vmem, ⟨4, _⟩ => ⟨S1000x300, .f32⟩
  | .local _ .vmem, ⟨5, _⟩ => ⟨S1024x300, .f32⟩
  | .local _ .vmem, ⟨6, _⟩ => ⟨S1x1024, .f32⟩
  | .local _ .vmem, ⟨7, _⟩ => ⟨S1000x1024, .bf16⟩
  | .local _ .vmem, ⟨8, _⟩ => ⟨S256x2048, .f32⟩
  | .local _ .vmem, ⟨9, _⟩ => ⟨S256x2048, .f32⟩
  | .local _ .vmem, ⟨10, _⟩ => ⟨S1000x2048, .bf16⟩
  | .local _ .vmem, ⟨11, _⟩ => ⟨S1x1000, .f32⟩
  | .local _ .vmem, ⟨12, _⟩ => ⟨S1024x2048, .bf16⟩
  | .local _ .vmem, ⟨13, _⟩ => ⟨S1x1024, .f32⟩
  | .local _ .vmem, ⟨14, _⟩ => ⟨S1000x1024, .bf16⟩
  | .local _ .vmem, ⟨15, _⟩ => ⟨S256x1000, .f32⟩
  | .local _ .vmem, ⟨16, _⟩ => ⟨S256x1000, .f32⟩
  | .local _ .vmem, ⟨17, _⟩ => ⟨S256x1000, .f32⟩
  | .local _ .vmem, ⟨18, _⟩ => ⟨S256x1000, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg6_1 : Ref sig .tc := ⟨.vmem, 16, rfl⟩
abbrev cc2_stg7_0 : Ref sig .tc := ⟨.vmem, 17, rfl⟩
abbrev cc2_stg7_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem6_1 : DmaSem sig := 16
abbrev cc2_sem7_0 : DmaSem sig := 17
abbrev cc2_sem7_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1000x300 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1000x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1000x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1000 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1000 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S1000_S1x1000 : S1000.ShapeCasts S1x1000
  shapeCasts_S1024_S1x1024 : S1024.ShapeCasts S1x1024
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  packedbf16_S1000x2048_S1000x2048_0_0 : (Rect.unit (s := S1000x2048) ![0, 0] S1000x2048.size inb_S1000x2048_S1000x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  inb_S1000x300_S1000x300_0_0 : ∀ a, (![0, 0] : Fin 2 → Nat) a + S1000x300.size a ≤ S1000x300.size a
  h_S1000x300 : 0 < S1000x300.numel
  inb_S1024x300_S1024x300_0_0 : ∀ a, (![0, 0] : Fin 2 → Nat) a + S1024x300.size a ≤ S1024x300.size a
  h_S1024x300 : 0 < S1024x300.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  packedbf16_S1000x1024_S1000x1024_0_0 : (Rect.unit (s := S1000x1024) ![0, 0] S1000x1024.size inb_S1000x1024_S1000x1024_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S1000x2048_S1000x2048 : S1000x2048.ShapeCasts S1000x2048
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  shapeCasts_S1024x2048_S1024x2048 : S1024x2048.ShapeCasts S1024x2048
  broadcasts_S1x1024_S256x1024 : S1x1024.Broadcasts S256x1024
  shapeCasts_S1000x1024_S1000x1024 : S1000x1024.ShapeCasts S1000x1024
  dot_S1000x300_S1024x300_S1000x1024_1_1_0_0_n_n_wf : DotDims.WF S1000x300 S1024x300 S1000x1024 [1] [1] [0] [0] [] []
  dot_S256x2048_S1000x2048_S256x1000_1_1_0_0_n_n_wf : DotDims.WF S256x2048 S1000x2048 S256x1000 [1] [1] [0] [0] [] []
  dot_S256x2048_S1024x2048_S256x1024_1_1_0_0_n_n_wf : DotDims.WF S256x2048 S1024x2048 S256x1024 [1] [1] [0] [0] [] []
  dot_S256x1024_S1000x1024_S256x1000_1_1_0_0_n_n_wf : DotDims.WF S256x1024 S1000x1024 S256x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S1000x2048.size a
  hwx0_0 : ∀ i : grid0.Coords, EltTy.bits .f32 = 32 ∨ (Rect.block (s := S1000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S1000x2048.size a
  hwx0_2 : ∀ i : grid0.Coords, EltTy.bits .bf16 = 32 ∨ (Rect.block (s := S1000x2048) S1000x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1000x300.size a ≤ S1000x300.size a
  hwx1_0 : ∀ i : grid1.Coords, EltTy.bits .f32 = 32 ∨ (Rect.block (s := S1000x300) S1000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x300.size a ≤ S1024x300.size a
  hwx1_1 : ∀ i : grid1.Coords, EltTy.bits .f32 = 32 ∨ (Rect.block (s := S1024x300) S1024x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S1000x1024.size a
  hwx1_3 : ∀ i : grid1.Coords, EltTy.bits .bf16 = 32 ∨ (Rect.block (s := S1000x1024) S1000x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000x2048.size a ≤ S1000x2048.size a
  hwx2_1 : ∀ i : grid2.Coords, EltTy.bits .bf16 = 32 ∨ (Rect.block (s := S1000x2048) S1000x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S1024x2048.size a
  hwx2_3 : ∀ i : grid2.Coords, EltTy.bits .bf16 = 32 ∨ (Rect.block (s := S1024x2048) S1024x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1000x1024.size a ≤ S1000x1024.size a
  hwx2_5 : ∀ i : grid2.Coords, EltTy.bits .bf16 = 32 ∨ (Rect.block (s := S1000x1024) S1000x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1000.size a ≤ S2048x1000.size a
  hwx2_6 : ∀ i : grid2.Coords, EltTy.bits .f32 = 32 ∨ (Rect.block (s := S2048x1000) S256x1000.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1000.size a ≤ S2048x1000.size a
  hwx2_7 : ∀ i : grid2.Coords, EltTy.bits .f32 = 32 ∨ (Rect.block (s := S2048x1000) S256x1000.size (cc2_transform_7 i) (hinb2_7 i)).WholeWords (EltTy.packing .f32)

variable [Facts₀]

def dot_S1000x300_S1024x300_S1000x1024_1_1_0_0_n_n : DotDims S1000x300 S1024x300 S1000x1024 where
  lhsContracting := [1]
  rhsContracting := [1]
  lhsNonContracting := [0]
  rhsNonContracting := [0]
  lhsBatch := []
  rhsBatch := []
  wf := dot_S1000x300_S1024x300_S1000x1024_1_1_0_0_n_n_wf
def dot_S256x2048_S1000x2048_S256x1000_1_1_0_0_n_n : DotDims S256x2048 S1000x2048 S256x1000 where
  lhsContracting := [1]
  rhsContracting := [1]
  lhsNonContracting := [0]
  rhsNonContracting := [0]
  lhsBatch := []
  rhsBatch := []
  wf := dot_S256x2048_S1000x2048_S256x1000_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1000x1024_S256x1000_1_1_0_0_n_n : DotDims S256x1024 S1000x1024 S256x1000 where
  lhsContracting := [1]
  rhsContracting := [1]
  lhsNonContracting := [0]
  rhsNonContracting := [0]
  lhsBatch := []
  rhsBatch := []
  wf := dot_S256x1024_S1000x1024_S256x1000_1_1_0_0_n_n_wf

abbrev win0_0 : Pipeline.Window sig grid0 :=
  Pipeline.Window.ofSpec (Memref.whole main_arg2) S1000x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1000x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x300.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1000x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1000x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1024x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1000x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S256x1000.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S256x1000.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S1000x300 : Shape := ⟨2, ![1000, 300]⟩
abbrev S1000x2048 : Shape := ⟨2, ![1000, 2048]⟩
abbrev S1000 : Shape := ⟨1, ![1000]⟩
abbrev S1024x2048 : Shape := ⟨2, ![1024, 2048]⟩
abbrev S1024 : Shape := ⟨1, ![1024]⟩
abbrev S1024x300 : Shape := ⟨2, ![1024, 300]⟩
abbrev S2048x1000 : Shape := ⟨2, ![2048, 1000]⟩
abbrev S1x1000 : Shape := ⟨2, ![1, 1000]⟩
abbrev S2048x1024 : Shape := ⟨2, ![2048, 1024]⟩
abbrev S1x1024 : Shape := ⟨2, ![1, 1024]⟩
abbrev S_ : Shape := ⟨0, ![]⟩
abbrev S300x1024 : Shape := ⟨2, ![300, 1024]⟩
abbrev S1000x1024 : Shape := ⟨2, ![1000, 1024]⟩
abbrev S1024x1000 : Shape := ⟨2, ![1024, 1000]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1000x300, .f32⟩
  | .hbm, ⟨2, _⟩ => ⟨S1000x2048, .f32⟩
  | .hbm, ⟨3, _⟩ => ⟨S1000, .f32⟩
  | .hbm, ⟨4, _⟩ => ⟨S1024x2048, .f32⟩
  | .hbm, ⟨5, _⟩ => ⟨S1024, .f32⟩
  | .hbm, ⟨6, _⟩ => ⟨S1024x300, .f32⟩
  | .hbm, ⟨7, _⟩ => ⟨S1024, .f32⟩
  | .hbm, ⟨8, _⟩ => ⟨S2048x1000, .f32⟩
  | .hbm, ⟨9, _⟩ => ⟨S2048x1000, .f32⟩
  | .hbm, ⟨10, _⟩ => ⟨S1x1000, .f32⟩
  | .hbm, ⟨11, _⟩ => ⟨S2048x1000, .f32⟩
  | .hbm, ⟨12, _⟩ => ⟨S2048x1000, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S300x1024, .f32⟩
  | .hbm, ⟨22, _⟩ => ⟨S1000x1024, .f32⟩
  | .hbm, ⟨23, _⟩ => ⟨S1x1024, .f32⟩
  | .hbm, ⟨24, _⟩ => ⟨S1000x1024, .f32⟩
  | .hbm, ⟨25, _⟩ => ⟨S1000x1024, .f32⟩
  | .hbm, ⟨26, _⟩ => ⟨S_, .f32⟩
  | .hbm, ⟨27, _⟩ => ⟨S1000x1024, .f32⟩
  | .hbm, ⟨28, _⟩ => ⟨S1000x1024, .f32⟩
  | .hbm, ⟨29, _⟩ => ⟨S1024x1000, .f32⟩
  | .hbm, ⟨30, _⟩ => ⟨S2048x1000, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  transposes_S1000x2048_S2048x1000_1_0 : S1000x2048.Transposes [1, 0] S2048x1000
  bcast_S1000_S1x1000_1 : S1000.BroadcastsInDim S1x1000 (![1] : Fin 1 → Fin S1x1000.rank)
  bcast_S1x1000_S2048x1000_0_1 : S1x1000.BroadcastsInDim S2048x1000 (![0, 1] : Fin 2 → Fin S2048x1000.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  transposes_S1024x300_S300x1024_1_0 : S1024x300.Transposes [1, 0] S300x1024
  bcast_S1x1024_S1000x1024_0_1 : S1x1024.BroadcastsInDim S1000x1024 (![0, 1] : Fin 2 → Fin S1000x1024.rank)
  bcast_S_S1000x1024 : S_.BroadcastsInDim S1000x1024 (![] : Fin 0 → Fin S1000x1024.rank)
  transposes_S1000x1024_S1024x1000_1_0 : S1000x1024.Transposes [1, 0] S1024x1000
  dot_S2048x2048_S2048x1000_S2048x1000_1_0_0_1_n_n_wf : DotDims.WF S2048x2048 S2048x1000 S2048x1000 [1] [0] [0] [1] [] []
  dot_S2048x2048_S2048x1024_S2048x1024_1_0_0_1_n_n_wf : DotDims.WF S2048x2048 S2048x1024 S2048x1024 [1] [0] [0] [1] [] []
  dot_S1000x300_S300x1024_S1000x1024_1_0_0_1_n_n_wf : DotDims.WF S1000x300 S300x1024 S1000x1024 [1] [0] [0] [1] [] []
  dot_S2048x1024_S1024x1000_S2048x1000_1_0_0_1_n_n_wf : DotDims.WF S2048x1024 S1024x1000 S2048x1000 [1] [0] [0] [1] [] []

variable [Facts₀]

def dot_S2048x2048_S2048x1000_S2048x1000_1_0_0_1_n_n : DotDims S2048x2048 S2048x1000 S2048x1000 where
  lhsContracting := [1]
  rhsContracting := [0]
  lhsNonContracting := [0]
  rhsNonContracting := [1]
  lhsBatch := []
  rhsBatch := []
  wf := dot_S2048x2048_S2048x1000_S2048x1000_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S1000x300_S300x1024_S1000x1024_1_0_0_1_n_n : DotDims S1000x300 S300x1024 S1000x1024 where
  lhsContracting := [1]
  rhsContracting := [0]
  lhsNonContracting := [0]
  rhsNonContracting := [1]
  lhsBatch := []
  rhsBatch := []
  wf := dot_S1000x300_S300x1024_S1000x1024_1_0_0_1_n_n_wf
def dot_S2048x1024_S1024x1000_S2048x1000_1_0_0_1_n_n : DotDims S2048x1024 S1024x1000 S2048x1000 where
  lhsContracting := [1]
  rhsContracting := [0]
  lhsNonContracting := [0]
  rhsNonContracting := [1]
  lhsBatch := []
  rhsBatch := []
  wf := dot_S2048x1024_S1024x1000_S2048x1000_1_0_0_1_n_n_wf

class Facts : Prop extends Facts₀ where

variable [Facts]
-- ==== Proof.CastValue.lean ====
/-
  Region 0 (the one-shot weight cast), read at the ideal values: a change of float format is the identity, so each of
  its two output arrays ends holding exactly the weights it was given — W_cls in the first, W_vis in the second.
  The grid has one point and every window's block is the whole array.
-/
import proofs.«408776_j53541062312223_3_alg».proof.Proof.Gen.KernelIdeal.Frame
import Idealize.ShloMosaic.Lib.Pipeline.Value
import Idealize.ShloMosaic.Lib.ValueIdx

noncomputable section

namespace Cert.KernelIdeal.Cast

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeros : (![0, 0] : Fin 2 → Nat) = fun _ => 0 := funext fun a => by fin_cases a <;> rfl

/-- Each output window sits where its input window does, at block (0, 0). -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_3.index t (0 : Fin 2) ∧ win0_1.index t (1 : Fin 2) = win0_3.index t (1 : Fin 2)
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What the first output array ends holding: the classifier's weights as the region finds them. -/
abbrev wcls (c : Dev nD) : Buf (Elt Ideal) ((cfg0.win 2).arr.view.loc (c.tc : Thread nD τ)) :=
  fun i => (V c main_arg2 i : EReal)

/-- What the second output array ends holding: the visual encoder's weights as the region finds them. -/
abbrev wvis (c : Dev nD) : Buf (Elt Ideal) ((cfg0.win 3).arr.view.loc (c.tc : Thread nD τ)) :=
  fun i => (V c main_arg4 i : EReal)

/-- The one point writes back the whole of `wcls`. -/
theorem flushed_wcls (c : Dev nD) (t : Fin cfg0.N) :
    (dat0 V c).flushed 2 t = ((cfg0.win 2).blk t).view.read (Elt Ideal) (wcls V c) := by
  show (cfg0.win 2).cut (grid0.coords t) ((dat0 V c).after 2 t) = _
  rw [after0_2]
  unfold out0_2
  rw [View.canon_unit_zero zeros]
  simp only [View.ld_unit_zero (S := S1000x2048) zeros]
  obtain ⟨e0, e1, -⟩ := idx_facts t
  funext j
  show (V c main_arg2 (((cfg0.win 0).blk t).view.emb j) : EReal) = V c main_arg2 (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 1000 + 1 * (j 0).val = win0_2.index t (0 : Fin 2) * 1000 + 1 * (j 0).val; rw [e0]
    | ⟨1, _⟩ => show win0_0.index t (1 : Fin 2) * 2048 + 1 * (j 1).val = win0_2.index t (1 : Fin 2) * 2048 + 1 * (j 1).val; rw [e1]
  rw [h0]

/-- The one point writes back the whole of `wvis`. -/
theorem flushed_wvis (c : Dev nD) (t : Fin cfg0.N) :
    (dat0 V c).flushed 3 t = ((cfg0.win 3).blk t).view.read (Elt Ideal) (wvis V c) := by
  show (cfg0.win 3).cut (grid0.coords t) ((dat0 V c).after 3 t) = _
  rw [after0_3]
  unfold out0_3
  rw [View.canon_unit_zero zeros]
  simp only [View.ld_unit_zero (S := S1024x2048) zeros]
  obtain ⟨-, -, e0, e1, -⟩ := idx_facts t
  funext j
  show (V c main_arg4 (((cfg0.win 1).blk t).view.emb j) : EReal) = V c main_arg4 (((cfg0.win 3).blk t).view.emb j)
  have h0 : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; rw [e0]
    | ⟨1, _⟩ => show win0_1.index t (1 : Fin 2) * 2048 + 1 * (j 1).val = win0_3.index t (1 : Fin 2) * 2048 + 1 * (j 1).val; rw [e1]
  rw [h0]

/-- An index of the first output array is in the point's block iff each coordinate is in the block's range. -/
theorem mem_blk2 (t : Fin cfg0.N) (i : S1000x2048.Idx) :
    i ∈ ((cfg0.win 2).blk t).view.set ↔ ∀ a : Fin 2, win0_2.index t a * S1000x2048.size a ≤ (i a).val ∧ (i a).val < win0_2.index t a * S1000x2048.size a + S1000x2048.size a := by
  show i ∈ ((View.whole main_v3_0).slice (win0_2.rect t)).set ↔ _
  rw [View.set_slice_whole, Rect.mem_set_unit]
  exact Iff.rfl

theorem mem_blk3 (t : Fin cfg0.N) (i : S1024x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v3_1).slice (win0_3.rect t)).set ↔ _
  rw [View.set_slice_whole, Rect.mem_set_unit]
  exact Iff.rfl

/-- The one block is the whole array. -/
theorem cover2 (i : S1000x2048.Idx) : ∃ t : Fin cfg0.N, (cfg0.win 2).flush t = true ∧ i ∈ ((cfg0.win 2).blk t).view.set := by
  refine ⟨t0_0, flush0_2 _, ?_⟩
  obtain ⟨-, -, -, -, e0, e1, -⟩ := idx_facts t0_0
  rw [mem_blk2]
  have h0 : (i 0).val < 1000 := (i 0).isLt
  have h1 : (i 1).val < 2048 := (i 1).isLt
  intro a
  match a with
  | ⟨0, _⟩ => show win0_2.index t0_0 (0 : Fin 2) * 1000 ≤ (i 0).val ∧ (i 0).val < win0_2.index t0_0 (0 : Fin 2) * 1000 + 1000; rw [e0]; omega
  | ⟨1, _⟩ => show win0_2.index t0_0 (1 : Fin 2) * 2048 ≤ (i 1).val ∧ (i 1).val < win0_2.index t0_0 (1 : Fin 2) * 2048 + 2048; rw [e1]; omega

theorem cover3 (i : S1024x2048.Idx) : ∃ t : Fin cfg0.N, (cfg0.win 3).flush t = true ∧ i ∈ ((cfg0.win 3).blk t).view.set := by
  refine ⟨t0_0, flush0_3 _, ?_⟩
  obtain ⟨-, -, -, -, -, -, e0, e1⟩ := idx_facts t0_0
  rw [mem_blk3]
  have h0 : (i 0).val < 1024 := (i 0).isLt
  have h1 : (i 1).val < 2048 := (i 1).isLt
  intro a
  match a with
  | ⟨0, _⟩ => show win0_3.index t0_0 (0 : Fin 2) * 1024 ≤ (i 0).val ∧ (i 0).val < win0_3.index t0_0 (0 : Fin 2) * 1024 + 1024; rw [e0]; omega
  | ⟨1, _⟩ => show win0_3.index t0_0 (1 : Fin 2) * 2048 ≤ (i 1).val ∧ (i 1).val < win0_3.index t0_0 (1 : Fin 2) * 2048 + 2048; rw [e1]; omega

/-- After the region the first output array holds the classifier's weights. -/
theorem final_wcls (c : Dev nD) : (dat0 V c).arrAt 2 cfg0.N = wcls V c :=
  (dat0 V c).arrAt_eq_of_cover 2 (wcls V c) (fun t _ => flushed_wcls V c t) cover2

/-- After the region the second output array holds the visual encoder's weights. -/
theorem final_wvis (c : Dev nD) : (dat0 V c).arrAt 3 cfg0.N = wvis V c :=
  (dat0 V c).arrAt_eq_of_cover 3 (wvis V c) (fun t _ => flushed_wvis V c t) cover3

end Cert.KernelIdeal.Cast

end
-- ==== Proof.Spec.lean ====
/-
  What the two results are, as functions of the eight argument arrays over the extended reals.

  With X the images (2048×2048), Wc, bc the classifier's weights and bias (1000×2048, 1000), Wv, bv the visual
  encoder's (1024×2048, 1024), E the word embeddings (1000×300) and Ws, bs the semantic encoder's (1024×300, 1024):

    logits(p, q) = ∑ₖ X(p, k) · Wc(q, k) + bc(q)
    scores(p, q) = ∑ₕ max(∑ₖ X(p, k) · Wv(h, k) + bv(h), 0) · max(∑ₗ E(q, l) · Ws(h, l) + bs(h), 0)

  Every matrix product contracts the SECOND coordinate of both factors (x @ W.T), so one definition serves all of them.
-/
import Idealize.ShloMosaic.PureOps.Ideal
import Idealize.ShloMosaic.Lib.ValueIdx

noncomputable section

namespace Devise

open Idealize.ShloMosaic Idealize.ShloMosaic.ValueIdx

variable {M N K : Nat}

/-- The entry (p, q) of A·Bᵀ + b: the sum over the contracted coordinate, then the bias of the column. -/
def linearAt (A : (⟨2, ![M, K]⟩ : Shape).Idx → EReal) (B : (⟨2, ![N, K]⟩ : Shape).Idx → EReal)
    (b : (⟨1, ![N]⟩ : Shape).Idx → EReal) (p : Fin M) (q : Fin N) : EReal :=
  (∑ k : Fin K, A (ix2 p k) * B (ix2 q k)) + b (ix1 q)

/-- A·Bᵀ + b as an array. -/
def linear (A : (⟨2, ![M, K]⟩ : Shape).Idx → EReal) (B : (⟨2, ![N, K]⟩ : Shape).Idx → EReal)
    (b : (⟨1, ![N]⟩ : Shape).Idx → EReal) : (⟨2, ![M, N]⟩ : Shape).Idx → EReal :=
  fun i => linearAt A B b (i 0) (i 1)

/-- The positive part, entry by entry. -/
def relu {s : Shape} (Y : s.Idx → EReal) : s.Idx → EReal := fun i => max (Y i) 0

/-- A·Bᵀ as an array: the pairing of row p of A with row q of B. -/
def pairing (A : (⟨2, ![M, K]⟩ : Shape).Idx → EReal) (B : (⟨2, ![N, K]⟩ : Shape).Idx → EReal) :
    (⟨2, ![M, N]⟩ : Shape).Idx → EReal :=
  fun i => ∑ k : Fin K, A (ix2 (i 0) k) * B (ix2 (i 1) k)

theorem linear_apply (A : (⟨2, ![M, K]⟩ : Shape).Idx → EReal) (B : (⟨2, ![N, K]⟩ : Shape).Idx → EReal)
    (b : (⟨1, ![N]⟩ : Shape).Idx → EReal) (p : Fin M) (q : Fin N) :
    linear A B b (ix2 p q) = (∑ k : Fin K, A (ix2 p k) * B (ix2 q k)) + b (ix1 q) := rfl

theorem pairing_apply (A : (⟨2, ![M, K]⟩ : Shape).Idx → EReal) (B : (⟨2, ![N, K]⟩ : Shape).Idx → EReal)
    (p : Fin M) (q : Fin N) : pairing A B (ix2 p q) = ∑ k : Fin K, A (ix2 p k) * B (ix2 q k) := rfl

theorem relu_apply {s : Shape} (Y : s.Idx → EReal) (i : s.Idx) : relu Y i = max (Y i) 0 := rfl

/-- The classifier head's logits. -/
def logits (X : (⟨2, ![2048, 2048]⟩ : Shape).Idx → EReal) (Wc : (⟨2, ![1000, 2048]⟩ : Shape).Idx → EReal)
    (bc : (⟨1, ![1000]⟩ : Shape).Idx → EReal) : (⟨2, ![2048, 1000]⟩ : Shape).Idx → EReal :=
  linear X Wc bc

/-- The visual embedding: linear, then the positive part. -/
def visual (X : (⟨2, ![2048, 2048]⟩ : Shape).Idx → EReal) (Wv : (⟨2, ![1024, 2048]⟩ : Shape).Idx → EReal)
    (bv : (⟨1, ![1024]⟩ : Shape).Idx → EReal) : (⟨2, ![2048, 1024]⟩ : Shape).Idx → EReal :=
  relu (linear X Wv bv)

/-- The semantic embedding of the classes: linear, then the positive part. -/
def semantic (E : (⟨2, ![1000, 300]⟩ : Shape).Idx → EReal) (Ws : (⟨2, ![1024, 300]⟩ : Shape).Idx → EReal)
    (bs : (⟨1, ![1024]⟩ : Shape).Idx → EReal) : (⟨2, ![1000, 1024]⟩ : Shape).Idx → EReal :=
  relu (linear E Ws bs)

/-- The retrieval scores: every image's visual embedding paired with every class's semantic embedding. -/
def scores (X : (⟨2, ![2048, 2048]⟩ : Shape).Idx → EReal) (E : (⟨2, ![1000, 300]⟩ : Shape).Idx → EReal)
    (Wv : (⟨2, ![1024, 2048]⟩ : Shape).Idx → EReal) (bv : (⟨1, ![1024]⟩ : Shape).Idx → EReal)
    (Ws : (⟨2, ![1024, 300]⟩ : Shape).Idx → EReal) (bs : (⟨1, ![1024]⟩ : Shape).Idx → EReal) :
    (⟨2, ![2048, 1000]⟩ : Shape).Idx → EReal :=
  pairing (visual X Wv bv) (semantic E Ws bs)

end Devise

end
-- ==== Proof.LibMatmulNT.lean ====
/-
  General lemmas, free of any program.

  * A `tpu.matmul` of an m×k block by an n×k block, both contracted over their second coordinate (the product A·Bᵀ),
    into the zero accumulator, read at the entry (a, b) at the ideal values, is the plain sum over the contracted
    coordinate c of A(a, c) · B(b, c): no accumulator term, no chunk order.
    Stated for the record `DotDims.transposedRhs m k n` and for any record equal to it (a printed record of the same
    six lists differs from it only in its well-formedness proof).
-/
import Idealize.ShloMosaic.PureOps.Ideal.Laws
import Idealize.ShloMosaic.Lib.ValueIdx

noncomputable section

namespace MatmulNT

open Idealize.ShloMosaic Idealize.ShloMosaic.ValueIdx

/-- The entry (a, b) of A·Bᵀ (A of m×k, B of n×k) accumulated into zero is `∑ c, A(a, c) · B(b, c)`. -/
theorem matmul_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  -- the contraction index built from c has c on its one axis
  have hc := contrEquiv1_symm_val (DotDims.transposedRhs m k n) k rfl rfl c
  -- the left operand is read at (a, c): axis 0 is the output's row, axis 1 the contracted coordinate
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl (ix2 a b) _).trans hc
  -- the right operand is read at (b, c): axis 0 is the output's column, axis 1 the contracted coordinate
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl (ix2 a b) _).trans hc
  rw [hl, hr]

/-- The same for any record that IS that one. -/
theorem matmul_zero_apply_of_eq {m k n : Nat} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul (F := Ideal) d prec A B (constant ⟨2, ![m, n]⟩ .f32 0x00000000#32) (ix2 a b)
      = ∑ c : Fin k, A (ix2 a c) * B (ix2 b c) := by
  subst hd; exact matmul_zero_apply prec A B a b

end MatmulNT

end
-- ==== Proof.SemanticValue.lean ====
/-
  Region 1 (the semantic encoder), read at the ideal values: its output array ends holding
    max(∑ₗ E(q, l) · Ws(h, l) + bs(0, h), 0)
  of the three arrays the region finds — the word embeddings E, the weights Ws and the bias as a 1×1024 row.
  The changes of float format are the identity, the matrix unit's product into the zero accumulator is the plain sum
  over the contracted coordinate, the bias row is broadcast over the 1000 rows, and the constant compared against is zero.
  The grid has one point and every window's block is the whole array.
-/
import proofs.«408776_j53541062312223_3_alg».proof.Proof.Gen.KernelIdeal.Frame
import proofs.«408776_j53541062312223_3_alg».proof.Proof.Spec
import proofs.«408776_j53541062312223_3_alg».proof.Proof.LibMatmulNT
import Idealize.ShloMosaic.Lib.Pipeline.Value
import Idealize.ShloMosaic.Lib.ValueIdx
import Idealize.ShloMosaic.Lib.ValueLayout

noncomputable section

namespace Cert.KernelIdeal.Sem

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeros : (![0, 0] : Fin 2 → Nat) = fun _ => 0 := funext fun a => by fin_cases a <;> rfl

/-- The body's stored value at the entry (q, h), from the three loaded blocks. -/
theorem pay_apply (e : Vec Ideal S1000x300 .f32) (w : Vec Ideal S1024x300 .f32) (b : Vec Ideal S1x1024 .f32)
    (q : Fin 1000) (h : Fin 1024) :
    (k1_pay1 e w b (ix2 q h) : EReal) = max ((∑ l : Fin 300, e (ix2 q l) * w (ix2 h l)) + b (ix2 (0 : Fin 1) h)) 0 := by
  have hm : matmul (F := Ideal) dot_S1000x300_S1024x300_S1000x1024_1_1_0_0_n_n none (truncf .bf16 e bitsLt_bf16_f32)
      (truncf .bf16 w bitsLt_bf16_f32) (constant S1000x1024 .f32 0x00000000#32) (ix2 q h)
      = ∑ l : Fin 300, e (ix2 q l) * w (ix2 h l) :=
    MatmulNT.matmul_zero_apply_of_eq _ rfl none _ _ q h
  have hb : broadcastTo S1000x1024 (shapeCast S1x1024 b shapeCasts_S1x1024_S1x1024) broadcasts_S1x1024_S1000x1024 (ix2 q h)
      = b (ix2 (0 : Fin 1) h) := by
    rw [shapeCast_self]; exact broadcastTo_1b_ab_apply b _ q h
  show max (matmul (F := Ideal) dot_S1000x300_S1024x300_S1000x1024_1_1_0_0_n_n none (truncf .bf16 e bitsLt_bf16_f32)
      (truncf .bf16 w bitsLt_bf16_f32) (constant S1000x1024 .f32 0x00000000#32) (ix2 q h)
    + broadcastTo S1000x1024 (shapeCast S1x1024 b shapeCasts_S1x1024_S1x1024) broadcasts_S1x1024_S1000x1024 (ix2 q h))
    (Ideal.ofBits .f32 0x00000000#32) = _
  rw [hm, hb, Ideal.ofBits_zero_f32]

/-- Every window sits at block (0, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The word embeddings' block is the whole array. -/
theorem read_we (c : Dev nD) (t : Fin cfg1.N) (y : S1000x300.Idx) : (iblk1 V c 0 t y : EReal) = V c main_arg1 y := by
  obtain ⟨e0, e1, -⟩ := idx_facts t
  show (V c main_arg1 (((cfg1.win 0).blk t).view.emb y) : EReal) = V c main_arg1 y
  refine congrArg (V c main_arg1) (funext fun a => Fin.ext ?_)
  match a with
  | ⟨0, _⟩ => show win1_0.index t (0 : Fin 2) * 1000 + 1 * (y 0).val = (y 0).val; rw [e0]; omega
  | ⟨1, _⟩ => show win1_0.index t (1 : Fin 2) * 300 + 1 * (y 1).val = (y 1).val; rw [e1]; omega

/-- The weights' block is the whole array. -/
theorem read_wsem (c : Dev nD) (t : Fin cfg1.N) (y : S1024x300.Idx) : (iblk1 V c 1 t y : EReal) = V c main_arg6 y := by
  obtain ⟨-, -, e0, e1, -⟩ := idx_facts t
  show (V c main_arg6 (((cfg1.win 1).blk t).view.emb y) : EReal) = V c main_arg6 y
  refine congrArg (V c main_arg6) (funext fun a => Fin.ext ?_)
  match a with
  | ⟨0, _⟩ => show win1_1.index t (0 : Fin 2) * 1024 + 1 * (y 0).val = (y 0).val; rw [e0]; omega
  | ⟨1, _⟩ => show win1_1.index t (1 : Fin 2) * 300 + 1 * (y 1).val = (y 1).val; rw [e1]; omega

/-- The bias row's block is the whole row. -/
theorem read_bsem (c : Dev nD) (t : Fin cfg1.N) (y : S1x1024.Idx) : (iblk1 V c 2 t y : EReal) = V c main_v2 y := by
  obtain ⟨-, -, -, -, e0, e1, -⟩ := idx_facts t
  show (V c main_v2 (((cfg1.win 2).blk t).view.emb y) : EReal) = V c main_v2 y
  refine congrArg (V c main_v2) (funext fun a => Fin.ext ?_)
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- The bias row as the region finds it, as a vector. -/
abbrev biasRow (c : Dev nD) : (⟨1, ![1024]⟩ : Shape).Idx → EReal := fun j => (V c main_v2 (ix2 (0 : Fin 1) (j 0)) : EReal)

/-- What the output array ends holding: the semantic embedding of the arrays the region finds. -/
abbrev sem (c : Dev nD) : Buf (Elt Ideal) ((cfg1.win 3).arr.view.loc (c.tc : Thread nD τ)) :=
  Devise.semantic (fun i => (V c main_arg1 i : EReal)) (fun i => (V c main_arg6 i : EReal)) (biasRow V c)

/-- The one point writes back the whole of `sem`. -/
theorem flushed_sem (c : Dev nD) (t : Fin cfg1.N) :
    (dat1 V c).flushed 3 t = ((cfg1.win 3).blk t).view.read (Elt Ideal) (sem V c) := by
  show (cfg1.win 3).cut (grid1.coords t) ((dat1 V c).after 3 t) = _
  rw [after1_3]
  unfold out1_3
  rw [View.canon_unit_zero zeros]
  simp only [View.ld_unit_zero (S := S1000x300) zeros, View.ld_unit_zero (S := S1024x300) zeros, View.ld_unit_zero (S := S1x1024) zeros]
  obtain ⟨-, -, -, -, -, -, e0, e1⟩ := idx_facts t
  funext j
  obtain ⟨q, h, rfl⟩ : ∃ (q : Fin 1000) (h : Fin 1024), j = ix2 q h := ⟨j 0, j 1, eq_ix2 j⟩
  have hemb : ((cfg1.win 3).blk t).view.emb (ix2 q h) = ix2 q h := by
    funext a; apply Fin.ext
    match a with
    | ⟨0, _⟩ => show win1_3.index t (0 : Fin 2) * 1000 + 1 * q.val = q.val; rw [e0]; omega
    | ⟨1, _⟩ => show win1_3.index t (1 : Fin 2) * 1024 + 1 * h.val = h.val; rw [e1]; omega
  show (k1_pay1 (iblk1 V c 0 t) (iblk1 V c 1 t) (iblk1 V c 2 t) (ix2 q h) : EReal) = sem V c (((cfg1.win 3).blk t).view.emb (ix2 q h))
  rw [hemb]
  refine (pay_apply (iblk1 V c 0 t) (iblk1 V c 1 t) (iblk1 V c 2 t) q h).trans ?_
  simp only [read_we, read_wsem, read_bsem]
  rfl

theorem mem_blk3 (t : Fin cfg1.N) (i : S1000x1024.Idx) :
    i ∈ ((cfg1.win 3).blk t).view.set ↔ ∀ a : Fin 2, win1_3.index t a * S1000x1024.size a ≤ (i a).val ∧ (i a).val < win1_3.index t a * S1000x1024.size a + S1000x1024.size a := by
  show i ∈ ((View.whole main_v4).slice (win1_3.rect t)).set ↔ _
  rw [View.set_slice_whole, Rect.mem_set_unit]
  exact Iff.rfl

/-- The one block is the whole array. -/
theorem cover3 (i : S1000x1024.Idx) : ∃ t : Fin cfg1.N, (cfg1.win 3).flush t = true ∧ i ∈ ((cfg1.win 3).blk t).view.set := by
  refine ⟨t1_0, flush1_3 _, ?_⟩
  obtain ⟨-, -, -, -, -, -, e0, e1⟩ := idx_facts t1_0
  rw [mem_blk3]
  have h0 : (i 0).val < 1000 := (i 0).isLt
  have h1 : (i 1).val < 1024 := (i 1).isLt
  intro a
  match a with
  | ⟨0, _⟩ => show win1_3.index t1_0 (0 : Fin 2) * 1000 ≤ (i 0).val ∧ (i 0).val < win1_3.index t1_0 (0 : Fin 2) * 1000 + 1000; rw [e0]; omega
  | ⟨1, _⟩ => show win1_3.index t1_0 (1 : Fin 2) * 1024 ≤ (i 1).val ∧ (i 1).val < win1_3.index t1_0 (1 : Fin 2) * 1024 + 1024; rw [e1]; omega

/-- After the region the output array holds the semantic embedding. -/
theorem final_sem (c : Dev nD) : (dat1 V c).arrAt 3 cfg1.N = sem V c :=
  (dat1 V c).arrAt_eq_of_cover 3 (sem V c) (fun t _ => flushed_sem V c t) cover3

end Cert.KernelIdeal.Sem

end
-- ==== Proof.MainValue.lean ====
/-
  Region 2 (the fused main kernel), read at the ideal values. The grid has 8 points; point t works on the image rows
  256·t … 256·t + 255 and writes the same rows of both outputs, while the weights, the two bias rows and the semantic
  embedding are resident whole. With X the images, Wc and Wv the weights as the region finds them, bc and bv the bias
  rows (1×1000, 1×1024) and S the semantic embedding (1000×1024), row p = 256·t + r of the outputs is

    logits(p, q) = ∑ₖ X(p, k) · Wc(q, k) + bc(0, q)
    scores(p, q) = ∑ₕ max(∑ₖ X(p, k) · Wv(h, k) + bv(0, h), 0) · S(q, h)

  the changes of float format being the identity and each matrix-unit product into the zero accumulator the plain sum
  over the contracted coordinate. The 8 blocks of 256 rows tile the 2048 rows, so the arrays end holding these
  functions everywhere.
-/
import proofs.«408776_j53541062312223_3_alg».proof.Proof.Gen.KernelIdeal.Frame
import proofs.«408776_j53541062312223_3_alg».proof.Proof.Spec
import proofs.«408776_j53541062312223_3_alg».proof.Proof.LibMatmulNT
import Idealize.ShloMosaic.Lib.Pipeline.Value
import Idealize.ShloMosaic.Lib.ValueIdx
import Idealize.ShloMosaic.Lib.ValueLayout

noncomputable section

namespace Cert.KernelIdeal.Main

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeros : (![0, 0] : Fin 2 → Nat) = fun _ => 0 := funext fun a => by fin_cases a <;> rfl

/-! ## The body's two stored values at an entry, from the loaded blocks -/

/-- The logits block at (r, q). -/
theorem pay_logits (x : Vec Ideal S256x2048 .f32) (w : Vec Ideal S1000x2048 .bf16) (b : Vec Ideal S1x1000 .f32)
    (r : Fin 256) (q : Fin 1000) :
    (k2_pay2 x w b (ix2 r q) : EReal) = (∑ k : Fin 2048, x (ix2 r k) * w (ix2 q k)) + b (ix2 (0 : Fin 1) q) := by
  have hm : matmul (F := Ideal) (φ₂ := .bf16) dot_S256x2048_S1000x2048_S256x1000_1_1_0_0_n_n none (k2_pay1 x)
      (shapeCast S1000x2048 w shapeCasts_S1000x2048_S1000x2048 : FVec Ideal S1000x2048 .bf16) (constant S256x1000 .f32 0x00000000#32) (ix2 r q)
      = ∑ k : Fin 2048, x (ix2 r k) * w (ix2 q k) := by
    rw [shapeCast_self]; exact MatmulNT.matmul_zero_apply_of_eq _ rfl none _ _ r q
  have hb : broadcastTo S256x1000 (shapeCast S1x1000 b shapeCasts_S1x1000_S1x1000) broadcasts_S1x1000_S256x1000 (ix2 r q)
      = b (ix2 (0 : Fin 1) q) := by
    rw [shapeCast_self]; exact broadcastTo_1b_ab_apply b _ r q
  show matmul (F := Ideal) (φ₂ := .bf16) dot_S256x2048_S1000x2048_S256x1000_1_1_0_0_n_n none (k2_pay1 x)
      (shapeCast S1000x2048 w shapeCasts_S1000x2048_S1000x2048 : FVec Ideal S1000x2048 .bf16) (constant S256x1000 .f32 0x00000000#32) (ix2 r q)
    + broadcastTo S256x1000 (shapeCast S1x1000 b shapeCasts_S1x1000_S1x1000) broadcasts_S1x1000_S256x1000 (ix2 r q) = _
  rw [hm, hb]

/-- The block's rows of the visual embedding: the positive part of the linear layer, as the body computes it. -/
def hidden (x : Vec Ideal S256x2048 .f32) (w : Vec Ideal S1024x2048 .bf16) (b : Vec Ideal S1x1024 .f32) :
    FVec Ideal S256x1024 .bf16 :=
  truncf .bf16 (maximumf (addf (matmul (φ₂ := .bf16) dot_S256x2048_S1024x2048_S256x1024_1_1_0_0_n_n none (k2_pay1 x)
      (shapeCast S1024x2048 w shapeCasts_S1024x2048_S1024x2048 : FVec Ideal S1024x2048 .bf16) (constant S256x1024 .f32 0x00000000#32))
    (broadcastTo S256x1024 (shapeCast S1x1024 b shapeCasts_S1x1024_S1x1024) broadcasts_S1x1024_S256x1024))
    (broadcast S256x1024 (Scalar.ofBits (F := Ideal) .f32 0x00000000#32))) bitsLt_bf16_f32

theorem hidden_apply (x : Vec Ideal S256x2048 .f32) (w : Vec Ideal S1024x2048 .bf16) (b : Vec Ideal S1x1024 .f32)
    (r : Fin 256) (h : Fin 1024) :
    (hidden x w b (ix2 r h) : EReal) = max ((∑ k : Fin 2048, x (ix2 r k) * w (ix2 h k)) + b (ix2 (0 : Fin 1) h)) 0 := by
  have hm : matmul (F := Ideal) (φ₂ := .bf16) dot_S256x2048_S1024x2048_S256x1024_1_1_0_0_n_n none (k2_pay1 x)
      (shapeCast S1024x2048 w shapeCasts_S1024x2048_S1024x2048 : FVec Ideal S1024x2048 .bf16) (constant S256x1024 .f32 0x00000000#32) (ix2 r h)
      = ∑ k : Fin 2048, x (ix2 r k) * w (ix2 h k) := by
    rw [shapeCast_self]; exact MatmulNT.matmul_zero_apply_of_eq _ rfl none _ _ r h
  have hb : broadcastTo S256x1024 (shapeCast S1x1024 b shapeCasts_S1x1024_S1x1024) broadcasts_S1x1024_S256x1024 (ix2 r h)
      = b (ix2 (0 : Fin 1) h) := by
    rw [shapeCast_self]; exact broadcastTo_1b_ab_apply b _ r h
  show max (matmul (F := Ideal) (φ₂ := .bf16) dot_S256x2048_S1024x2048_S256x1024_1_1_0_0_n_n none (k2_pay1 x)
      (shapeCast S1024x2048 w shapeCasts_S1024x2048_S1024x2048 : FVec Ideal S1024x2048 .bf16) (constant S256x1024 .f32 0x00000000#32) (ix2 r h)
    + broadcastTo S256x1024 (shapeCast S1x1024 b shapeCasts_S1x1024_S1x1024) broadcasts_S1x1024_S256x1024 (ix2 r h))
    (Ideal.ofBits .f32 0x00000000#32) = _
  rw [hm, hb, Ideal.ofBits_zero_f32]

/-- The scores block at (r, q): the hidden rows paired with the semantic embedding's rows. -/
theorem pay_scores (x : Vec Ideal S256x2048 .f32) (w : Vec Ideal S1024x2048 .bf16) (b : Vec Ideal S1x1024 .f32)
    (s : Vec Ideal S1000x1024 .bf16) (r : Fin 256) (q : Fin 1000) :
    (k2_pay3 x w b s (ix2 r q) : EReal)
      = ∑ h : Fin 1024, max ((∑ k : Fin 2048, x (ix2 r k) * w (ix2 h k)) + b (ix2 (0 : Fin 1) h)) 0 * s (ix2 q h) := by
  show matmul (F := Ideal) (φ₂ := .bf16) dot_S256x1024_S1000x1024_S256x1000_1_1_0_0_n_n none (hidden x w b)
      (shapeCast S1000x1024 s shapeCasts_S1000x1024_S1000x1024 : FVec Ideal S1000x1024 .bf16) (constant S256x1000 .f32 0x00000000#32) (ix2 r q) = _
  rw [shapeCast_self]
  refine (MatmulNT.matmul_zero_apply_of_eq (φ₁ := .bf16) (φ₂ := .bf16) dot_S256x1024_S1000x1024_S256x1000_1_1_0_0_n_n rfl none (hidden x w b) s r q).trans ?_
  exact Finset.sum_congr rfl fun h _ => by rw [hidden_apply]

/-! ## The windows' blocks -/

/-- The image and the two outputs move down one block of rows per point; the other five windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem point_lt (t : Fin cfg2.N) : t.val < 8 := lt_of_lt_of_eq t.isLt N_2

/-- Row r of point t's block is row 256·t + r of the array. -/
def row (t : Fin cfg2.N) (r : Fin 256) : Fin 2048 := ⟨256 * t.val + r.val, by have := point_lt t; have := r.isLt; omega⟩

/-- The image block at point t is rows 256·t … of the images. -/
theorem read_img (c : Dev nD) (t : Fin cfg2.N) (r : Fin 256) (k : Fin 2048) :
    (iblk2 V c 0 t (ix2 r k) : EReal) = V c main_arg0 (ix2 (row t r) k) := by
  obtain ⟨e0, e1, -⟩ := idx_facts t
  show (V c main_arg0 (((cfg2.win 0).blk t).view.emb (ix2 r k)) : EReal) = V c main_arg0 (ix2 (row t r) k)
  refine congrArg (V c main_arg0) (funext fun a => Fin.ext ?_)
  match a with
  | ⟨0, _⟩ => show win2_0.index t (0 : Fin 2) * 256 + 1 * r.val = 256 * t.val + r.val; rw [e0]; omega
  | ⟨1, _⟩ => show win2_0.index t (1 : Fin 2) * 2048 + 1 * k.val = k.val; rw [e1]; omega

theorem read_wcls (c : Dev nD) (t : Fin cfg2.N) (y : S1000x2048.Idx) : (iblk2 V c 1 t y : EReal) = V c main_v3_0 y := by
  obtain ⟨-, -, e0, e1, -⟩ := idx_facts t
  show (V c main_v3_0 (((cfg2.win 1).blk t).view.emb y) : EReal) = V c main_v3_0 y
  refine congrArg (V c main_v3_0) (funext fun a => Fin.ext ?_)
  match a with
  | ⟨0, _⟩ => show win2_1.index t (0 : Fin 2) * 1000 + 1 * (y 0).val = (y 0).val; rw [e0]; omega
  | ⟨1, _⟩ => show win2_1.index t (1 : Fin 2) * 2048 + 1 * (y 1).val = (y 1).val; rw [e1]; omega

theorem read_bcls (c : Dev nD) (t : Fin cfg2.N) (y : S1x1000.Idx) : (iblk2 V c 2 t y : EReal) = V c main_v0 y := by
  obtain ⟨-, -, -, -, e0, e1, -⟩ := idx_facts t
  show (V c main_v0 (((cfg2.win 2).blk t).view.emb y) : EReal) = V c main_v0 y
  refine congrArg (V c main_v0) (funext fun a => Fin.ext ?_)
  match a with
  | ⟨0, _⟩ => show win2_2.index t (0 : Fin 2) * 1 + 1 * (y 0).val = (y 0).val; rw [e0]; omega
  | ⟨1, _⟩ => show win2_2.index t (1 : Fin 2) * 1000 + 1 * (y 1).val = (y 1).val; rw [e1]; omega

theorem read_wvis (c : Dev nD) (t : Fin cfg2.N) (y : S1024x2048.Idx) : (iblk2 V c 3 t y : EReal) = V c main_v3_1 y := by
  obtain ⟨-, -, -, -, -, -, e0, e1, -⟩ := idx_facts t
  show (V c main_v3_1 (((cfg2.win 3).blk t).view.emb y) : EReal) = V c main_v3_1 y
  refine congrArg (V c main_v3_1) (funext fun a => Fin.ext ?_)
  match a with
  | ⟨0, _⟩ => show win2_3.index t (0 : Fin 2) * 1024 + 1 * (y 0).val = (y 0).val; rw [e0]; omega
  | ⟨1, _⟩ => show win2_3.index t (1 : Fin 2) * 2048 + 1 * (y 1).val = (y 1).val; rw [e1]; omega

theorem read_bvis (c : Dev nD) (t : Fin cfg2.N) (y : S1x1024.Idx) : (iblk2 V c 4 t y : EReal) = V c main_v1 y := by
  obtain ⟨-, -, -, -, -, -, -, -, e0, e1, -⟩ := idx_facts t
  show (V c main_v1 (((cfg2.win 4).blk t).view.emb y) : EReal) = V c main_v1 y
  refine congrArg (V c main_v1) (funext fun a => Fin.ext ?_)
  match a with
  | ⟨0, _⟩ => show win2_4.index t (0 : Fin 2) * 1 + 1 * (y 0).val = (y 0).val; rw [e0]; omega
  | ⟨1, _⟩ => show win2_4.index t (1 : Fin 2) * 1024 + 1 * (y 1).val = (y 1).val; rw [e1]; omega

theorem read_sem (c : Dev nD) (t : Fin cfg2.N) (y : S1000x1024.Idx) : (iblk2 V c 5 t y : EReal) = V c main_v4 y := by
  obtain ⟨-, -, -, -, -, -, -, -, -, -, e0, e1, -⟩ := idx_facts t
  show (V c main_v4 (((cfg2.win 5).blk t).view.emb y) : EReal) = V c main_v4 y
  refine congrArg (V c main_v4) (funext fun a => Fin.ext ?_)
  match a with
  | ⟨0, _⟩ => show win2_5.index t (0 : Fin 2) * 1000 + 1 * (y 0).val = (y 0).val; rw [e0]; omega
  | ⟨1, _⟩ => show win2_5.index t (1 : Fin 2) * 1024 + 1 * (y 1).val = (y 1).val; rw [e1]; omega

/-! ## What the two output arrays end holding -/

/-- The classifier's bias row as the region finds it, as a vector. -/
abbrev bclsRow (c : Dev nD) : (⟨1, ![1000]⟩ : Shape).Idx → EReal := fun j => (V c main_v0 (ix2 (0 : Fin 1) (j 0)) : EReal)
/-- The visual encoder's bias row as the region finds it, as a vector. -/
abbrev bvisRow (c : Dev nD) : (⟨1, ![1024]⟩ : Shape).Idx → EReal := fun j => (V c main_v1 (ix2 (0 : Fin 1) (j 0)) : EReal)

/-- The logits of the arrays the region finds. -/
abbrev logitsOut (c : Dev nD) : Buf (Elt Ideal) ((cfg2.win 6).arr.view.loc (c.tc : Thread nD τ)) :=
  Devise.linear (M := 2048) (N := 1000) (K := 2048) (fun i => (V c main_arg0 i : EReal)) (fun i => (V c main_v3_0 i : EReal)) (bclsRow V c)

/-- The scores of the arrays the region finds. -/
abbrev scoresOut (c : Dev nD) : Buf (Elt Ideal) ((cfg2.win 7).arr.view.loc (c.tc : Thread nD τ)) :=
  Devise.pairing (M := 2048) (N := 1000) (K := 1024)
    (Devise.relu (Devise.linear (M := 2048) (N := 1024) (K := 2048) (fun i => (V c main_arg0 i : EReal)) (fun i => (V c main_v3_1 i : EReal)) (bvisRow V c)))
    (fun i => (V c main_v4 i : EReal))

/-- Point t writes back rows 256·t … of `logitsOut`. -/
theorem flushed_logits (c : Dev nD) (t : Fin cfg2.N) :
    (dat2 V c).flushed 6 t = ((cfg2.win 6).blk t).view.read (Elt Ideal) (logitsOut V c) := by
  show (cfg2.win 6).cut (grid2.coords t) ((dat2 V c).after 6 t) = _
  rw [after2_6]
  unfold out2_6
  rw [View.canon_unit_zero zeros]
  simp only [View.ld_unit_zero (S := S256x2048) zeros, View.ld_unit_zero (S := S1000x2048) zeros, View.ld_unit_zero (S := S1x1000) zeros]
  obtain ⟨-, -, -, -, -, -, -, -, -, -, -, -, e0, e1, -⟩ := idx_facts t
  funext j
  obtain ⟨r, q, rfl⟩ : ∃ (r : Fin 256) (q : Fin 1000), j = ix2 r q := ⟨j 0, j 1, eq_ix2 j⟩
  have hemb : ((cfg2.win 6).blk t).view.emb (ix2 r q) = ix2 (row t r) q := by
    funext a; apply Fin.ext
    match a with
    | ⟨0, _⟩ => show win2_6.index t (0 : Fin 2) * 256 + 1 * r.val = 256 * t.val + r.val; rw [e0]; omega
    | ⟨1, _⟩ => show win2_6.index t (1 : Fin 2) * 1000 + 1 * q.val = q.val; rw [e1]; omega
  show (k2_pay2 (iblk2 V c 0 t) (iblk2 V c 1 t) (iblk2 V c 2 t) (ix2 r q) : EReal) = logitsOut V c (((cfg2.win 6).blk t).view.emb (ix2 r q))
  rw [hemb]
  refine (pay_logits (iblk2 V c 0 t) (iblk2 V c 1 t) (iblk2 V c 2 t) r q).trans ?_
  simp only [read_img, read_wcls, read_bcls]
  rfl

/-- Point t writes back rows 256·t … of `scoresOut`. -/
theorem flushed_scores (c : Dev nD) (t : Fin cfg2.N) :
    (dat2 V c).flushed 7 t = ((cfg2.win 7).blk t).view.read (Elt Ideal) (scoresOut V c) := by
  show (cfg2.win 7).cut (grid2.coords t) ((dat2 V c).after 7 t) = _
  rw [after2_7]
  unfold out2_7
  rw [View.canon_unit_zero zeros]
  simp only [View.ld_unit_zero (S := S256x2048) zeros, View.ld_unit_zero (S := S1024x2048) zeros, View.ld_unit_zero (S := S1x1024) zeros, View.ld_unit_zero (S := S1000x1024) zeros]
  obtain ⟨-, -, -, -, -, -, -, -, -, -, -, -, -, -, e0, e1⟩ := idx_facts t
  funext j
  obtain ⟨r, q, rfl⟩ : ∃ (r : Fin 256) (q : Fin 1000), j = ix2 r q := ⟨j 0, j 1, eq_ix2 j⟩
  have hemb : ((cfg2.win 7).blk t).view.emb (ix2 r q) = ix2 (row t r) q := by
    funext a; apply Fin.ext
    match a with
    | ⟨0, _⟩ => show win2_7.index t (0 : Fin 2) * 256 + 1 * r.val = 256 * t.val + r.val; rw [e0]; omega
    | ⟨1, _⟩ => show win2_7.index t (1 : Fin 2) * 1000 + 1 * q.val = q.val; rw [e1]; omega
  show (k2_pay3 (iblk2 V c 0 t) (iblk2 V c 3 t) (iblk2 V c 4 t) (iblk2 V c 5 t) (ix2 r q) : EReal) = scoresOut V c (((cfg2.win 7).blk t).view.emb (ix2 r q))
  rw [hemb]
  refine (pay_scores (iblk2 V c 0 t) (iblk2 V c 3 t) (iblk2 V c 4 t) (iblk2 V c 5 t) r q).trans ?_
  simp only [read_img, read_wvis, read_bvis, read_sem]
  rfl

/-! ## The 8 blocks tile the rows -/

theorem mem_blk6 (t : Fin cfg2.N) (i : S2048x1000.Idx) :
    i ∈ ((cfg2.win 6).blk t).view.set ↔ ∀ a : Fin 2, win2_6.index t a * S256x1000.size a ≤ (i a).val ∧ (i a).val < win2_6.index t a * S256x1000.size a + S256x1000.size a := by
  show i ∈ ((View.whole main_v5_0).slice (win2_6.rect t)).set ↔ _
  rw [View.set_slice_whole, Rect.mem_set_unit]
  exact Iff.rfl

theorem mem_blk7 (t : Fin cfg2.N) (i : S2048x1000.Idx) :
    i ∈ ((cfg2.win 7).blk t).view.set ↔ ∀ a : Fin 2, win2_7.index t a * S256x1000.size a ≤ (i a).val ∧ (i a).val < win2_7.index t a * S256x1000.size a + S256x1000.size a := by
  show i ∈ ((View.whole main_v5_1).slice (win2_7.rect t)).set ↔ _
  rw [View.set_slice_whole, Rect.mem_set_unit]
  exact Iff.rfl

/-- The point whose block holds row i: i / 256. -/
def pointOf (i : S2048x1000.Idx) : Fin cfg2.N :=
  ⟨(i 0).val / 256, lt_of_lt_of_eq (by have h : (i 0).val < 2048 := (i 0).isLt; omega) N_2.symm⟩

theorem cover6 (i : S2048x1000.Idx) : ∃ t : Fin cfg2.N, (cfg2.win 6).flush t = true ∧ i ∈ ((cfg2.win 6).blk t).view.set := by
  refine ⟨pointOf i, flush2_6 _, ?_⟩
  obtain ⟨-, -, -, -, -, -, -, -, -, -, -, -, e0, e1, -⟩ := idx_facts (pointOf i)
  have e0' : win2_6.index (pointOf i) (0 : Fin 2) = (i 0).val / 256 := e0
  rw [mem_blk6]
  have h0 : (i 0).val < 2048 := (i 0).isLt
  have h1 : (i 1).val < 1000 := (i 1).isLt
  intro a
  match a with
  | ⟨0, _⟩ => show win2_6.index (pointOf i) (0 : Fin 2) * 256 ≤ (i 0).val ∧ (i 0).val < win2_6.index (pointOf i) (0 : Fin 2) * 256 + 256; rw [e0']; omega
  | ⟨1, _⟩ => show win2_6.index (pointOf i) (1 : Fin 2) * 1000 ≤ (i 1).val ∧ (i 1).val < win2_6.index (pointOf i) (1 : Fin 2) * 1000 + 1000; rw [e1]; omega

theorem cover7 (i : S2048x1000.Idx) : ∃ t : Fin cfg2.N, (cfg2.win 7).flush t = true ∧ i ∈ ((cfg2.win 7).blk t).view.set := by
  refine ⟨pointOf i, flush2_7 _, ?_⟩
  obtain ⟨-, -, -, -, -, -, -, -, -, -, -, -, -, -, e0, e1⟩ := idx_facts (pointOf i)
  have e0' : win2_7.index (pointOf i) (0 : Fin 2) = (i 0).val / 256 := e0
  rw [mem_blk7]
  have h0 : (i 0).val < 2048 := (i 0).isLt
  have h1 : (i 1).val < 1000 := (i 1).isLt
  intro a
  match a with
  | ⟨0, _⟩ => show win2_7.index (pointOf i) (0 : Fin 2) * 256 ≤ (i 0).val ∧ (i 0).val < win2_7.index (pointOf i) (0 : Fin 2) * 256 + 256; rw [e0']; omega
  | ⟨1, _⟩ => show win2_7.index (pointOf i) (1 : Fin 2) * 1000 ≤ (i 1).val ∧ (i 1).val < win2_7.index (pointOf i) (1 : Fin 2) * 1000 + 1000; rw [e1]; omega

/-- After the region the first output array holds the logits. -/
theorem final_logits (c : Dev nD) : (dat2 V c).arrAt 6 cfg2.N = logitsOut V c :=
  (dat2 V c).arrAt_eq_of_cover 6 (logitsOut V c) (fun t _ => flushed_logits V c t) cover6

/-- After the region the second output array holds the scores. -/
theorem final_scores (c : Dev nD) : (dat2 V c).arrAt 7 cfg2.N = scoresOut V c :=
  (dat2 V c).arrAt_eq_of_cover 7 (scoresOut V c) (fun t _ => flushed_scores V c t) cover7

end Cert.KernelIdeal.Main

end
-- ==== Proof.KernelValue.lean ====
/-
  The kernel's two results as functions of its arguments, at the ideal values.

  @main is three reshapes of the biases to rows, then three regions. Reading the buffer contents at each region's entry
  back to the launch memory: the reshapes leave b_cls, b_vis, b_sem as 1×n rows; region 0 leaves the weights W_cls, W_vis
  themselves (a change of format is the identity); region 1 leaves the semantic embedding of (word_embeddings, W_sem,
  b_sem); no region writes an argument. Region 2 then leaves, in the two result arrays, the logits of
  (image, W_cls, b_cls) and the pairing of the visual embedding of (image, W_vis, b_vis) with that semantic embedding:
  `Devise.logits` and `Devise.scores` of the arguments.
-/
import proofs.«408776_j53541062312223_3_alg».proof.Proof.Gen.KernelIdeal.Frame
import proofs.«408776_j53541062312223_3_alg».proof.Proof.KernelRun
import proofs.«408776_j53541062312223_3_alg».proof.Proof.CastValue
import proofs.«408776_j53541062312223_3_alg».proof.Proof.SemanticValue
import proofs.«408776_j53541062312223_3_alg».proof.Proof.MainValue
import proofs.«408776_j53541062312223_3_alg».proof.Proof.Spec
import Idealize.ShloMosaic.Lib.StableHlo.Run
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx

variable (m : (ℓ : Loc nD τ sig) → Buf (Elt Ideal) ℓ) (ρ : Dev nD → PrngReg)

/-! ## Equal arrays give equal results -/

theorem linear_congr {M N K : Nat} {A A' : (⟨2, ![M, K]⟩ : Shape).Idx → EReal} {B B' : (⟨2, ![N, K]⟩ : Shape).Idx → EReal}
    {b b' : (⟨1, ![N]⟩ : Shape).Idx → EReal} (hA : A = A') (hB : B = B') (hb : b = b') :
    Devise.linear A B b = Devise.linear A' B' b' := by subst hA hB hb; rfl

theorem pairing_congr {M N K : Nat} {A A' : (⟨2, ![M, K]⟩ : Shape).Idx → EReal} {B B' : (⟨2, ![N, K]⟩ : Shape).Idx → EReal}
    (hA : A = A') (hB : B = B') : Devise.pairing A B = Devise.pairing A' B' := by subst hA hB; rfl

theorem semantic_congr {E E' : (⟨2, ![1000, 300]⟩ : Shape).Idx → EReal} {W W' : (⟨2, ![1024, 300]⟩ : Shape).Idx → EReal}
    {b b' : (⟨1, ![1024]⟩ : Shape).Idx → EReal} (hE : E = E') (hW : W = W') (hb : b = b') :
    Devise.semantic E W b = Devise.semantic E' W' b' := by subst hE hW hb; rfl

/-! ## After the three reshapes -/

theorem host_arg0 (c : Dev nD) : W1 m ρ c (Proc.devRef .tc main_arg0) = m ((c : Thread nD τ).loc main_arg0) := by
  dsimp only [W1, hostOps0]; after_results
theorem host_arg1 (c : Dev nD) : W1 m ρ c (Proc.devRef .tc main_arg1) = m ((c : Thread nD τ).loc main_arg1) := by
  dsimp only [W1, hostOps0]; after_results
theorem host_arg2 (c : Dev nD) : W1 m ρ c (Proc.devRef .tc main_arg2) = m ((c : Thread nD τ).loc main_arg2) := by
  dsimp only [W1, hostOps0]; after_results
theorem host_arg4 (c : Dev nD) : W1 m ρ c (Proc.devRef .tc main_arg4) = m ((c : Thread nD τ).loc main_arg4) := by
  dsimp only [W1, hostOps0]; after_results
theorem host_arg6 (c : Dev nD) : W1 m ρ c (Proc.devRef .tc main_arg6) = m ((c : Thread nD τ).loc main_arg6) := by
  dsimp only [W1, hostOps0]; after_results

/-- b_cls as a 1×1000 row. -/
theorem host_bcls (c : Dev nD) : W1 m ρ c (Proc.devRef .tc main_v0)
    = fun i => shapeCast S1x1000 (m ((c : Thread nD τ).loc main_arg3)) shapeCasts_S1000_S1x1000 i := by
  dsimp only [W1, hostOps0]; after_results; rfl
/-- b_vis as a 1×1024 row. -/
theorem host_bvis (c : Dev nD) : W1 m ρ c (Proc.devRef .tc main_v1)
    = fun i => shapeCast S1x1024 (m ((c : Thread nD τ).loc main_arg5)) shapeCasts_S1024_S1x1024 i := by
  dsimp only [W1, hostOps0]; after_results; rfl
/-- b_sem as a 1×1024 row. -/
theorem host_bsem (c : Dev nD) : W1 m ρ c (Proc.devRef .tc main_v2)
    = fun i => shapeCast S1x1024 (m ((c : Thread nD τ).loc main_arg7)) shapeCasts_S1024_S1x1024 i := by
  dsimp only [W1, hostOps0]; after_results; rfl

/-- Entry (0, q) of a vector laid out as one row is its entry q. -/
theorem row_apply {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_one, Shape.rowMajor_val_two]
    show q.val = 0 * n + q.val
    omega)

/-! ## What region 2 finds -/

/-- The images, as launched. -/
theorem entry_img (c : Dev nD) : (fun i => (V3 m ρ c main_arg0 i : EReal)) = fun i => (m ((c : Thread nD τ).loc main_arg0) i : EReal) := by
  have h : W3 m ρ c (Proc.devRef .tc main_arg0) = m ((c : Thread nD τ).loc main_arg0) :=
    (W3_of_ne m ρ c main_arg0 (by decide)).trans ((W2_of_ne m ρ c main_arg0 (by decide)).trans (host_arg0 m ρ c))
  exact funext fun i => congrFun h i

/-- The classifier's weights: region 0's first output, which holds W_cls. -/
theorem entry_wcls (c : Dev nD) : (fun i => (V3 m ρ c main_v3_0 i : EReal)) = fun i => (m ((c : Thread nD τ).loc main_arg2) i : EReal) := by
  have h1 : W3 m ρ c (Proc.devRef .tc main_v3_0) = W2 m ρ c (Proc.devRef .tc main_v3_0) := W3_of_ne m ρ c main_v3_0 (by decide)
  have h2 : W2 m ρ c (Proc.devRef .tc main_v3_0) = Cast.wcls (V1 m ρ) c := (W2_arr m ρ c 2).trans (Cast.final_wcls (V1 m ρ) c)
  have h3 : W1 m ρ c (Proc.devRef .tc main_arg2) = m ((c : Thread nD τ).loc main_arg2) := host_arg2 m ρ c
  funext i
  show (W3 m ρ c (Proc.devRef .tc main_v3_0) i : EReal) = _
  rw [h1, h2]
  exact congrFun h3 i

/-- The visual encoder's weights: region 0's second output, which holds W_vis. -/
theorem entry_wvis (c : Dev nD) : (fun i => (V3 m ρ c main_v3_1 i : EReal)) = fun i => (m ((c : Thread nD τ).loc main_arg4) i : EReal) := by
  have h1 : W3 m ρ c (Proc.devRef .tc main_v3_1) = W2 m ρ c (Proc.devRef .tc main_v3_1) := W3_of_ne m ρ c main_v3_1 (by decide)
  have h2 : W2 m ρ c (Proc.devRef .tc main_v3_1) = Cast.wvis (V1 m ρ) c := (W2_arr m ρ c 3).trans (Cast.final_wvis (V1 m ρ) c)
  have h3 : W1 m ρ c (Proc.devRef .tc main_arg4) = m ((c : Thread nD τ).loc main_arg4) := host_arg4 m ρ c
  funext i
  show (W3 m ρ c (Proc.devRef .tc main_v3_1) i : EReal) = _
  rw [h1, h2]
  exact congrFun h3 i

/-- The classifier's bias row is b_cls. -/
theorem entry_bcls (c : Dev nD) : Main.bclsRow (V3 m ρ) c = fun j => (m ((c : Thread nD τ).loc main_arg3) j : EReal) := by
  have h : W3 m ρ c (Proc.devRef .tc main_v0) = W1 m ρ c (Proc.devRef .tc main_v0) :=
    (W3_of_ne m ρ c main_v0 (by decide)).trans (W2_of_ne m ρ c main_v0 (by decide))
  funext j
  show (W3 m ρ c (Proc.devRef .tc main_v0) (ix2 (0 : Fin 1) (j 0)) : EReal) = _
  rw [h, host_bcls]
  refine (row_apply (n := 1000) _ _ (j 0)).trans ?_
  exact congrArg (m ((c : Thread nD τ).loc main_arg3)) (eq_ix1 j).symm

/-- The visual encoder's bias row is b_vis. -/
theorem entry_bvis (c : Dev nD) : Main.bvisRow (V3 m ρ) c = fun j => (m ((c : Thread nD τ).loc main_arg5) j : EReal) := by
  have h : W3 m ρ c (Proc.devRef .tc main_v1) = W1 m ρ c (Proc.devRef .tc main_v1) :=
    (W3_of_ne m ρ c main_v1 (by decide)).trans (W2_of_ne m ρ c main_v1 (by decide))
  funext j
  show (W3 m ρ c (Proc.devRef .tc main_v1) (ix2 (0 : Fin 1) (j 0)) : EReal) = _
  rw [h, host_bvis]
  refine (row_apply (n := 1024) _ _ (j 0)).trans ?_
  exact congrArg (m ((c : Thread nD τ).loc main_arg5)) (eq_ix1 j).symm

/-! ## What region 1 finds, and leaves -/

theorem entry_we (c : Dev nD) : (fun i => (V2 m ρ c main_arg1 i : EReal)) = fun i => (m ((c : Thread nD τ).loc main_arg1) i : EReal) := by
  have h : W2 m ρ c (Proc.devRef .tc main_arg1) = m ((c : Thread nD τ).loc main_arg1) :=
    (W2_of_ne m ρ c main_arg1 (by decide)).trans (host_arg1 m ρ c)
  exact funext fun i => congrFun h i

theorem entry_wsem (c : Dev nD) : (fun i => (V2 m ρ c main_arg6 i : EReal)) = fun i => (m ((c : Thread nD τ).loc main_arg6) i : EReal) := by
  have h : W2 m ρ c (Proc.devRef .tc main_arg6) = m ((c : Thread nD τ).loc main_arg6) :=
    (W2_of_ne m ρ c main_arg6 (by decide)).trans (host_arg6 m ρ c)
  exact funext fun i => congrFun h i

theorem entry_bsem (c : Dev nD) : Sem.biasRow (V2 m ρ) c = fun j => (m ((c : Thread nD τ).loc main_arg7) j : EReal) := by
  have h : W2 m ρ c (Proc.devRef .tc main_v2) = W1 m ρ c (Proc.devRef .tc main_v2) := W2_of_ne m ρ c main_v2 (by decide)
  funext j
  show (W2 m ρ c (Proc.devRef .tc main_v2) (ix2 (0 : Fin 1) (j 0)) : EReal) = _
  rw [h, host_bsem]
  refine (row_apply (n := 1024) _ _ (j 0)).trans ?_
  exact congrArg (m ((c : Thread nD τ).loc main_arg7)) (eq_ix1 j).symm

/-- The semantic embedding region 2 finds is that of the launched word embeddings, W_sem and b_sem. -/
theorem entry_sem (c : Dev nD) : (fun i => (V3 m ρ c main_v4 i : EReal))
    = Devise.semantic (fun i => (m ((c : Thread nD τ).loc main_arg1) i : EReal)) (fun i => (m ((c : Thread nD τ).loc main_arg6) i : EReal))
        (fun j => (m ((c : Thread nD τ).loc main_arg7) j : EReal)) := by
  have h2 : W3 m ρ c (Proc.devRef .tc main_v4) = Sem.sem (V2 m ρ) c := (W3_arr m ρ c 3).trans (Sem.final_sem (V2 m ρ) c)
  have h3 : Sem.sem (V2 m ρ) c = Devise.semantic (fun i => (m ((c : Thread nD τ).loc main_arg1) i : EReal))
      (fun i => (m ((c : Thread nD τ).loc main_arg6) i : EReal)) (fun j => (m ((c : Thread nD τ).loc main_arg7) j : EReal)) :=
    semantic_congr (entry_we m ρ c) (entry_wsem m ρ c) (entry_bsem m ρ c)
  exact funext fun i => congrFun (h2.trans h3) i

/-! ## The two results -/

/-- The logits of the launched arguments. -/
abbrev logits (c : Dev nD) : Buf (Elt Ideal) ((c.tc : Thread nD τ).loc main_v5_0) :=
  Devise.logits (fun i => (m ((c : Thread nD τ).loc main_arg0) i : EReal)) (fun i => (m ((c : Thread nD τ).loc main_arg2) i : EReal))
    (fun j => (m ((c : Thread nD τ).loc main_arg3) j : EReal))

/-- The scores of the launched arguments. -/
abbrev scores (c : Dev nD) : Buf (Elt Ideal) ((c.tc : Thread nD τ).loc main_v5_1) :=
  Devise.scores (fun i => (m ((c : Thread nD τ).loc main_arg0) i : EReal)) (fun i => (m ((c : Thread nD τ).loc main_arg1) i : EReal))
    (fun i => (m ((c : Thread nD τ).loc main_arg4) i : EReal)) (fun j => (m ((c : Thread nD τ).loc main_arg5) j : EReal))
    (fun i => (m ((c : Thread nD τ).loc main_arg6) i : EReal)) (fun j => (m ((c : Thread nD τ).loc main_arg7) j : EReal))

theorem result_logits (c : Dev nD) : W4 m ρ c (Proc.devRef .tc main_v5_0) = logits m c := by
  have h : W4 m ρ c (Proc.devRef .tc main_v5_0) = Main.logitsOut (V3 m ρ) c := (W4_arr m ρ c 6).trans (Main.final_logits (V3 m ρ) c)
  rw [h]
  exact linear_congr (entry_img m ρ c) (entry_wcls m ρ c) (entry_bcls m ρ c)

theorem result_scores (c : Dev nD) : W4 m ρ c (Proc.devRef .tc main_v5_1) = scores m c := by
  have h : W4 m ρ c (Proc.devRef .tc main_v5_1) = Main.scoresOut (V3 m ρ) c := (W4_arr m ρ c 7).trans (Main.final_scores (V3 m ρ) c)
  rw [h]
  exact pairing_congr (congrArg Devise.relu (linear_congr (entry_img m ρ c) (entry_wvis m ρ c) (entry_bvis m ρ c)))
    (entry_sem m ρ c)

/-- Every weakly fair execution of the kernel's @main terminates, nothing faulting, with the logits and the scores of
    the launched arguments in the two result arrays and the arguments unchanged. -/
theorem run : θ_run defs (onTc (τ := τ) (main (F := Ideal))) ⟨m, fun _ => 0, ρ⟩ (fun r => ∀ c : Dev nD,
      r.2.mem ((c.tc : Thread nD τ).loc main_v5_0) = logits m c
      ∧ r.2.mem ((c.tc : Thread nD τ).loc main_v5_1) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_logits m ρ c), (h c).2.1.trans (result_scores m ρ c), (h c).2.2⟩)
    (Cert.KernelIdeal.Results.run_results (F := Ideal) m ρ)

end Cert.KernelIdeal.Whole

end
-- ==== Proof.RefValue.lean ====
/-
  The reference's two results are the functions `Devise.logits` and `Devise.scores` of its arguments.

  The reference computes each product x @ W.T as a transpose followed by a product contracting the left factor's
  second coordinate with the right factor's first: entry (p, q) is ∑ₖ x(p, k) · Wᵀ(k, q) = ∑ₖ x(p, k) · W(q, k), the same
  sum as the definition's. The bias is broadcast along the rows, and relu is the maximum with the zero constant.
-/
import proofs.«408776_j53541062312223_3_alg».proof.Proof.Gen.ReferenceIdeal.Run
import proofs.«408776_j53541062312223_3_alg».proof.Proof.Gen.ReferenceIdeal.Read
import proofs.«408776_j53541062312223_3_alg».proof.Proof.Spec

noncomputable section

namespace Cert.ReferenceIdeal.RefValue

open Cert.ReferenceIdeal Cert.ReferenceIdeal.Read Idealize.ShloMosaic Idealize.ShloMosaic.ValueIdx

/-! ## The index maps of the reference's operations, at an entry (p, q) -/

theorem lhs_logits (p : Fin 2048) (q : Fin 1000) (k : Fin 2048) : lidx_main_v1 (ix2 p q) k = ix2 p k :=
  funext fun a => match a with | ⟨0, _⟩ => rfl | ⟨1, _⟩ => rfl
theorem rhs_logits (p : Fin 2048) (q : Fin 1000) (k : Fin 2048) : idx_main_v0 (ridx_main_v1 (ix2 p q) k) = ix2 q k :=
  funext fun a => match a with | ⟨0, _⟩ => rfl | ⟨1, _⟩ => rfl
theorem bias_logits (p : Fin 2048) (q : Fin 1000) : idx_main_v2 (idx_main_v3 (ix2 p q)) = ix1 q :=
  funext fun a => match a with | ⟨0, _⟩ => rfl

theorem lhs_visual (p : Fin 2048) (h : Fin 1024) (k : Fin 2048) : lidx_main_v6 (ix2 p h) k = ix2 p k :=
  funext fun a => match a with | ⟨0, _⟩ => rfl | ⟨1, _⟩ => rfl
theorem rhs_visual (p : Fin 2048) (h : Fin 1024) (k : Fin 2048) : idx_main_v5 (ridx_main_v6 (ix2 p h) k) = ix2 h k :=
  funext fun a => match a with | ⟨0, _⟩ => rfl | ⟨1, _⟩ => rfl
theorem bias_visual (p : Fin 2048) (h : Fin 1024) : idx_main_v7 (idx_main_v8 (ix2 p h)) = ix1 h :=
  funext fun a => match a with | ⟨0, _⟩ => rfl

theorem lhs_semantic (q : Fin 1000) (h : Fin 1024) (l : Fin 300) : lidx_main_v12 (ix2 q h) l = ix2 q l :=
  funext fun a => match a with | ⟨0, _⟩ => rfl | ⟨1, _⟩ => rfl
theorem rhs_semantic (q : Fin 1000) (h : Fin 1024) (l : Fin 300) : idx_main_v11 (ridx_main_v12 (ix2 q h) l) = ix2 h l :=
  funext fun a => match a with | ⟨0, _⟩ => rfl | ⟨1, _⟩ => rfl
theorem bias_semantic (q : Fin 1000) (h : Fin 1024) : idx_main_v13 (idx_main_v14 (ix2 q h)) = ix1 h :=
  funext fun a => match a with | ⟨0, _⟩ => rfl

theorem lhs_scores (p : Fin 2048) (q : Fin 1000) (h : Fin 1024) : lidx_main_v18 (ix2 p q) h = ix2 p h :=
  funext fun a => match a with | ⟨0, _⟩ => rfl | ⟨1, _⟩ => rfl
theorem rhs_scores (p : Fin 2048) (q : Fin 1000) (h : Fin 1024) : idx_main_v17 (ridx_main_v18 (ix2 p q) h) = ix2 q h :=
  funext fun a => match a with | ⟨0, _⟩ => rfl | ⟨1, _⟩ => rfl

/-! ## The stages -/

/-- image @ W_cls.T + b_cls is `logits`. -/
theorem logits_eq (x0 : (⟨S2048x2048, .f32⟩ : BufTy).Contents (Elt Ideal)) (x2 : (⟨S1000x2048, .f32⟩ : BufTy).Contents (Elt Ideal))
    (x3 : (⟨S1000, .f32⟩ : BufTy).Contents (Elt Ideal)) :
    val_main_v4 (F := Ideal) x0 x2 x3 = Devise.logits x0 x2 x3 := by
  funext i
  obtain ⟨p, q, rfl⟩ : ∃ (p : Fin 2048) (q : Fin 1000), i = ix2 p q := ⟨i 0, i 1, eq_ix2 i⟩
  rw [val_main_v4_apply, val_main_v1_apply, val_main_v3_apply, val_main_v2_apply]
  simp only [val_main_v0_apply, lhs_logits, rhs_logits, bias_logits]
  rfl

/-- relu(image @ W_vis.T + b_vis) is `visual`. -/
theorem visual_eq (x0 : (⟨S2048x2048, .f32⟩ : BufTy).Contents (Elt Ideal)) (x4 : (⟨S1024x2048, .f32⟩ : BufTy).Contents (Elt Ideal))
    (x5 : (⟨S1024, .f32⟩ : BufTy).Contents (Elt Ideal)) :
    val_main_v10 (F := Ideal) x0 x4 x5 = Devise.visual x0 x4 x5 := by
  funext i
  obtain ⟨p, h, rfl⟩ : ∃ (p : Fin 2048) (h : Fin 1024), i = ix2 p h := ⟨i 0, i 1, eq_ix2 i⟩
  rw [val_main_v10_apply, val_main_v9_apply, val_main_v6_apply, val_main_v8_apply, val_main_v7_apply,
    val_main_call0_v0_apply, val_main_call0_cst_apply]
  simp only [val_main_v5_apply, lhs_visual, rhs_visual, bias_visual, Ideal.ofBits_def, Ideal.ofBits_zero_f32]
  rfl

/-- relu(word_embeddings @ W_sem.T + b_sem) is `semantic`. -/
theorem semantic_eq (x1 : (⟨S1000x300, .f32⟩ : BufTy).Contents (Elt Ideal)) (x6 : (⟨S1024x300, .f32⟩ : BufTy).Contents (Elt Ideal))
    (x7 : (⟨S1024, .f32⟩ : BufTy).Contents (Elt Ideal)) :
    val_main_v16 (F := Ideal) x1 x6 x7 = Devise.semantic x1 x6 x7 := by
  funext i
  obtain ⟨q, h, rfl⟩ : ∃ (q : Fin 1000) (h : Fin 1024), i = ix2 q h := ⟨i 0, i 1, eq_ix2 i⟩
  rw [val_main_v16_apply, val_main_v15_apply, val_main_v12_apply, val_main_v14_apply, val_main_v13_apply,
    val_main_call1_v0_apply, val_main_call1_cst_apply]
  simp only [val_main_v11_apply, lhs_semantic, rhs_semantic, bias_semantic, Ideal.ofBits_def, Ideal.ofBits_zero_f32]
  rfl

/-- visual_emb @ semantic_emb.T is `scores`. -/
theorem scores_eq (x0 : (⟨S2048x2048, .f32⟩ : BufTy).Contents (Elt Ideal)) (x1 : (⟨S1000x300, .f32⟩ : BufTy).Contents (Elt Ideal))
    (x4 : (⟨S1024x2048, .f32⟩ : BufTy).Contents (Elt Ideal)) (x5 : (⟨S1024, .f32⟩ : BufTy).Contents (Elt Ideal))
    (x6 : (⟨S1024x300, .f32⟩ : BufTy).Contents (Elt Ideal)) (x7 : (⟨S1024, .f32⟩ : BufTy).Contents (Elt Ideal)) :
    val_main_v18 (F := Ideal) x0 x1 x4 x5 x6 x7 = Devise.scores x0 x1 x4 x5 x6 x7 := by
  funext i
  obtain ⟨p, q, rfl⟩ : ∃ (p : Fin 2048) (q : Fin 1000), i = ix2 p q := ⟨i 0, i 1, eq_ix2 i⟩
  rw [val_main_v18_apply, visual_eq]
  simp only [val_main_v17_apply, lhs_scores, rhs_scores]
  rw [semantic_eq]
  rfl

end Cert.ReferenceIdeal.RefValue

end
-- ==== Proof.lean ====
/-
  The kernel and its reference compute the same logits and the same retrieval scores, over the extended reals.

  The reference is  logits = image @ W_cls.T + b_cls  and  scores = relu(image @ W_vis.T + b_vis) @ relu(word_embeddings @ W_sem.T + b_sem).T.
  The kernel does it in three launches: a cast of W_cls and W_vis to a narrower float format; the semantic embedding
  relu(word_embeddings @ W_sem.T + b_sem); and a main kernel that, for each of 8 blocks of 256 image rows, computes the
  block's logits, its visual embedding, and the pairing of that with the semantic embedding. Over the extended reals a
  change of float format is the identity and every matrix product is the plain sum over the contracted coordinate, so
  both programs end with `Devise.logits` and `Devise.scores` of their arguments (Proof/Spec.lean): the kernel by
  Proof/KernelValue.lean (over Proof/CastValue.lean, Proof/SemanticValue.lean, Proof/MainValue.lean, one per launch),
  the reference by Proof/RefValue.lean. No law beyond the definitions is needed — the two sides are the same sums of the
  same products in the same order — so the finiteness of the inputs is never used. The ideal pass rewrote nothing in
  the kernel, so there is nothing to preserve.
-/
import proofs.«408776_j53541062312223_3_alg».proof.Defs
import proofs.«408776_j53541062312223_3_alg».proof.Proof.Gen.Kernel
import proofs.«408776_j53541062312223_3_alg».proof.Proof.Gen.Kernel.Skeleton
import proofs.«408776_j53541062312223_3_alg».proof.Proof.Gen.Kernel.Launch
import proofs.«408776_j53541062312223_3_alg».proof.Proof.Gen.Kernel.Points
import proofs.«408776_j53541062312223_3_alg».proof.Proof.Gen.Kernel.Frame
import proofs.«408776_j53541062312223_3_alg».proof.Proof.Gen.KernelIdeal
import proofs.«408776_j53541062312223_3_alg».proof.Proof.Gen.KernelIdeal.Skeleton
import proofs.«408776_j53541062312223_3_alg».proof.Proof.Gen.KernelIdeal.Launch
import proofs.«408776_j53541062312223_3_alg».proof.Proof.Gen.KernelIdeal.Points
import proofs.«408776_j53541062312223_3_alg».proof.Proof.Gen.KernelIdeal.Frame
import proofs.«408776_j53541062312223_3_alg».proof.Proof.Gen.ReferenceIdeal
import proofs.«408776_j53541062312223_3_alg».proof.Proof.Gen.ReferenceIdeal.Run
import proofs.«408776_j53541062312223_3_alg».proof.Proof.Gen.ReferenceIdeal.Read
import proofs.«408776_j53541062312223_3_alg».proof.Proof.Gen.Pre_finite_inputs
import proofs.«408776_j53541062312223_3_alg».proof.Proof.KernelValue
import proofs.«408776_j53541062312223_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as launched: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the logits and the scores of those arguments. -/
theorem algebraic : Cert.algebraic_KernelIdeal_ReferenceIdeal := by
  intro m ρ m' ρ' _ hagree
  refine ⟨fun c => Cert.KernelIdeal.Whole.logits m c, fun c => Cert.KernelIdeal.Whole.scores m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    refine (Cert.ReferenceIdeal.Read.val_main_v4_eq (F := Ideal) _ _ _).trans ?_
    rw [Cert.ReferenceIdeal.RefValue.logits_eq, h0, h2, h3]
  · obtain ⟨h0, h1, h2, h3, h4, h5, h6, h7⟩ := hagree c
    refine (Cert.ReferenceIdeal.Read.val_main_v18_eq (F := Ideal) _ _ _ _ _ _).trans ?_
    rw [Cert.ReferenceIdeal.RefValue.scores_eq, h0, h1, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
